-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S4x4096x4096 .f32) (main_arg1 : FVec F S8x4096 .f32) (main_arg2 : IVec S4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  main_v8
-- ==== Kernel.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1x1x4096 : Shape := ⟨3, ![1, 1, 4096]⟩
abbrev S1x512x4096 : Shape := ⟨3, ![1, 512, 4096]⟩

abbrev nBuf : Space → Nat
  | .hbm => 24
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096, .f32⟩
  | .hbm, ⟨22, _⟩ => ⟨S1x1x4096, .f32⟩
  | .hbm, ⟨23, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x512x4096 : S1x1x4096.Broadcasts S1x512x4096
  gather_S8x4096_S4096x2_S4096_n_01_n_n_01_1_11_wf : GatherDims.WF S8x4096 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

def gather_S8x4096_S4096x2_S4096_n_01_n_n_01_1_11 : GatherDims S8x4096 S4096x2 S4096 where
  offsetDims := []
  collapsedSliceDims := [0, 1]
  operandBatchingDims := []
  startIndicesBatchingDims := []
  startIndexMap := [0, 1]
  indexVectorDim := 1
  sliceSizes := ![1, 1]
  wf := gather_S8x4096_S4096x2_S4096_n_01_n_n_01_1_11_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096, .f32⟩
  | .hbm, ⟨22, _⟩ => ⟨S1x1x4096, .f32⟩
  | .hbm, ⟨23, _⟩ => ⟨S4x4096x4096, .f32⟩
  | .hbm, ⟨24, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  gather_S8x4096_S4096x2_S4096_n_01_n_n_01_1_11_wf : GatherDims.WF S8x4096 S4096x2 S4096 [] [0, 1] [] [0, 1] [] 1 ![1, 1]

variable [Facts₀]

def gather_S8x4096_S4096x2_S4096_n_01_n_n_01_1_11 : GatherDims S8x4096 S4096x2 S4096 where
  offsetDims := []
  collapsedSliceDims := [0, 1]
  operandBatchingDims := []
  startIndicesBatchingDims := []
  startIndexMap := [0, 1]
  indexVectorDim := 1
  sliceSizes := ![1, 1]
  wf := gather_S8x4096_S4096x2_S4096_n_01_n_n_01_1_11_wf

class Facts : Prop extends Facts₀ where

variable [Facts]
-- ==== Proof.DimScale.lean ====
/-
  Scaling by a per-coordinate weight: the function both programs compute.

  For an array `x` of shape [4, 4096, 4096] and a weight vector `w` of length 4096, the result at
  `(b, s, d)` is `x (b, s, d) * w d`: every entry is multiplied by the weight of its LAST coordinate.
  The two programs reach this function by different layouts of `w`:

  * the reference broadcasts `w` to [1, 1, 4096] and then to the full shape, and multiplies whole arrays;
  * the kernel reshapes `w` to [1, 1, 4096], and at each grid point multiplies a [1, 512, 4096] block of `x` by
    that row broadcast down the 512 rows of the block.

  Nothing here needs finiteness: each side is ONE product per entry, of the same two extended reals.
-/
import Idealize.ShloMosaic.PureOps.Ideal
import Idealize.ShloMosaic.Lib.ValueIdx
import Idealize.ShloMosaic.Lib.Pipeline.Value

noncomputable section

namespace Cert.DimScale

open Idealize.ShloMosaic Idealize.ShloMosaic.ValueIdx

/-- The array's shape, the weight vector's, the weight as a one-row array, and one block of the array. -/
abbrev SX : Shape := ⟨3, ![4, 4096, 4096]⟩
abbrev SW : Shape := ⟨1, ![4096]⟩
abbrev SRow : Shape := ⟨3, ![1, 1, 4096]⟩
abbrev SBlk : Shape := ⟨3, ![1, 512, 4096]⟩

/-- Every entry of `x` times the weight of its last coordinate. -/
def dimScale (x : SX.Idx → EReal) (w : SW.Idx → EReal) : SX.Idx → EReal :=
  fun i => x i * w (ix1 (i 2))

/-- The weight vector laid out as the one row [1, 1, 4096] by a reshape: entry `(0, 0, d)` is `w d`
    (both have row-major position `d`). -/
theorem row_of_reshape (w : SW.Idx → EReal) (h : SW.ShapeCasts SRow) (d : Fin 4096) :
    shapeCast SRow w h (ix3 (0 : Fin 1) (0 : Fin 1) d) = w (ix1 d) := by
  refine shapeCast_apply w h _ _ ?_
  rw [Shape.rowMajor_val_one, Shape.rowMajor_val_three]
  show d.val = ((0 : Fin 1).val * 1 + (0 : Fin 1).val) * 4096 + d.val
  simp

/-- The reference's side: `x` times `w` broadcast to a row and then to the whole shape is `dimScale`. -/
theorem mul_bcast_eq (x : FVec Ideal SX .f32) (w : FVec Ideal SW .f32)
    (h1 : SW.BroadcastsInDim SRow (![2] : Fin 1 → Fin 3))
    (h2 : SRow.BroadcastsInDim SX (![0, 1, 2] : Fin 3 → Fin 3)) :
    mulf x (broadcastInDim SX ![0, 1, 2] h2 (broadcastInDim SRow ![2] h1 w)) = dimScale x w := by
  funext i
  have full_of_row : broadcastInDim SX ![0, 1, 2] h2 (broadcastInDim SRow ![2] h1 w) i
      = broadcastInDim SRow ![2] h1 w (ix3 (0 : Fin 1) (0 : Fin 1) (i 2)) :=
    broadcastInDim_apply _ h2 _ i _ (fun a => by match a with | ⟨0, _⟩ => rfl | ⟨1, _⟩ => rfl | ⟨2, _⟩ => rfl)
  have row_of_vec : broadcastInDim SRow ![2] h1 w (ix3 (0 : Fin 1) (0 : Fin 1) (i 2)) = w (ix1 (i 2)) :=
    broadcastInDim_apply _ h1 w _ _ (fun a => by match a with | ⟨0, _⟩ => rfl)
  show x i * _ = x i * _
  rw [full_of_row, row_of_vec]

/-- The kernel's side at one entry of a block: the block of `x` times the row broadcast down the block's rows
    is, at `y`, the block's entry times the row's entry at `y`'s last coordinate. -/
theorem blk_mul_row_apply (x0 : FVec Ideal SBlk .f32) (r : FVec Ideal SRow .f32)
    (h1 : SRow.ShapeCasts SRow) (h2 : SRow.Broadcasts SBlk) (y : SBlk.Idx) :
    mulf x0 (broadcastTo SBlk (shapeCast SRow r h1) h2) y = x0 y * r (ix3 (0 : Fin 1) (0 : Fin 1) (y 2)) := by
  rw [mulf_apply, shapeCast_self,
    broadcastTo_apply r h2 y (ix3 (0 : Fin 1) (0 : Fin 1) (y 2))
      (fun a => by match a with | ⟨0, _⟩ => rfl | ⟨1, _⟩ => rfl | ⟨2, _⟩ => rfl)]

end Cert.DimScale

end
-- ==== Proof.KernelArray.lean ====
/-
  The kernel's output array after the run, as one function of the arguments.

  Before the call the host gathers one weight per last coordinate `d` out of the table of shards —
  `weight shards shard_map d`, the entry of `shards` the index pair `(shard_map d, d)` (negative indices wrapped)
  names — and reshapes that vector to a one-row array [1, 1, 4096]. The call runs over a 4 × 8 grid: point
  `(b, s)` stages block `(b, s, 0)` of `x` (one batch entry, 512 rows, all 4096 columns) and the whole row, and
  writes back block `(b, s, 0)` of the result: the block of `x` times the row broadcast down the 512 rows.
  So what a point writes back is its block of `dimScale x weight`; the 32 blocks tile the array (the point that
  covers `(b, r, d)` is `(b, r / 512)`), and the array ends holding `dimScale x weight`.
-/
import proofs.«161922_j35485019800370_1_alg».proof.Proof.Gen.KernelIdeal.Value
import proofs.«161922_j35485019800370_1_alg».proof.Proof.DimScale
import Idealize.ShloMosaic.Lib.Pipeline.Value
import Idealize.ShloMosaic.Lib.ValueIdx
import Idealize.ShloMosaic.Lib.StableHlo.Run

noncomputable section

namespace Cert.KernelIdeal.Scaled

open Cert.KernelIdeal Cert.KernelIdeal.Gen Idealize.ShloMosaic Idealize.ShloMosaic.TcCoe Idealize.SL.Sem
open Idealize.ShloMosaic.StableHlo Idealize.ShloMosaic.ValueIdx Cert.DimScale
open Idealize.ShloMosaic.Pipeline (Dat)

variable (m : (ℓ : Loc nD τ sig) → Buf (Elt Ideal) ℓ) (ρ : Dev nD → PrngReg)

/-! ## The weight vector the host computes -/

/-- The weight of each last coordinate: the table `shards` gathered at the index pairs `(shard_map d, d)`, each
    index wrapped once when negative (`shard_map d + 8`, `d + 4096`). -/
def weight (shards : (⟨S8x4096, .f32⟩ : BufTy).Contents (Elt Ideal)) (smap : (⟨S4096, .i32⟩ : BufTy).Contents (Elt Ideal)) :
    (⟨S4096, .f32⟩ : BufTy).Contents (Elt Ideal) :=
  Host.gather gather_S8x4096_S4096x2_S4096_n_01_n_n_01_1_11 shards
    (concatenate S4096x2 1
      [⟨S4096x1, (broadcastInDim S4096x1 ![0] bcast_S4096_S4096x1_0
          (select (cmpi .slt smap (broadcastInDim S4096 ![] bcast_S_S4096 (constantI S_ 32 0#32)))
            (addi smap (broadcastInDim S4096 ![] bcast_S_S4096 (constantI S_ 32 8#32))) smap))⟩,
       ⟨S4096x1, (broadcastInDim S4096x1 ![0] bcast_S4096_S4096x1_0
          (select (cmpi .slt (iotaInDim S4096 32 0) (broadcastInDim S4096 ![] bcast_S_S4096 (constantI S_ 32 0#32)))
            (addi (iotaInDim S4096 32 0) (broadcastInDim S4096 ![] bcast_S_S4096 (constantI S_ 32 4096#32)))
            (iotaInDim S4096 32 0)))⟩]
      concatenates_S4096x1_S4096x1_S4096x2_d1)

/-- The weight vector of the launch memory. -/
abbrev wvec (c : Dev nD) : (⟨S4096, .f32⟩ : BufTy).Contents (Elt Ideal) :=
  weight (m ((c : Thread nD τ).loc main_arg1)) (m ((c : Thread nD τ).loc main_arg2))

/-- The array `x` and the one-row array as the call finds them, and the blocks of them a point stages, each
    named at its literal type. -/
abbrev xarr (c : Dev nD) : S4x4096x4096.Idx → EReal := V m c main_arg0
abbrev rowarr (c : Dev nD) : S1x1x4096.Idx → EReal := V m c main_v15
abbrev xblk (c : Dev nD) (t : Fin cfg0.N) : S1x512x4096.Idx → EReal := iblk m c 0 t
abbrev rowblk (c : Dev nD) (t : Fin cfg0.N) : S1x1x4096.Idx → EReal := iblk m c 1 t

set_option maxHeartbeats 2000000 in
/-- The one-row array the call is handed is the weight vector, reshaped. -/
theorem row_eq (c : Dev nD) :
    rowarr m c = shapeCast S1x1x4096 (wvec m c) shapeCasts_S4096_S1x1x4096 := by
  dsimp only [rowarr, Gen.V, Gen.hostOps0]
  after_results
  rfl

/-- The row's entry `(0, 0, d)` is the weight of `d`. -/
theorem row_apply (c : Dev nD) (d : Fin 4096) :
    rowarr m c (ix3 (0 : Fin 1) (0 : Fin 1) d) = wvec m c (ix1 d) := by
  rw [row_eq]
  exact row_of_reshape (wvec m c) shapeCasts_S4096_S1x1x4096 d

/-! ## The windows' blocks over the grid -/

theorem origin3 : (![0, 0, 0] : Fin 3 → Nat) = fun _ => 0 := funext fun a => by fin_cases a <;> rfl

/-- The printed index maps, decided over the 32 grid points: the block of `x` a point stages is the block of the
    result it writes back, both span all columns, the row is always block `(0, 0, 0)`, and the result's block
    indices stay inside the 4 × 8 grid of blocks. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0 ∧ win0_2.index t (2 : Fin 3) = 0
    ∧ win0_1.index t (0 : Fin 3) = 0 ∧ win0_1.index t (1 : Fin 3) = 0 ∧ win0_1.index t (2 : Fin 3) = 0
    ∧ win0_2.index t (0 : Fin 3) ≤ 3 ∧ win0_2.index t (1 : Fin 3) ≤ 7 :=
  (by decide +kernel : ∀ t : Fin grid0.N, _)

/-- Every block `(b, s, 0)` of the result is some point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-! ## What a point writes back -/

/-- Point `t` writes back its block of `dimScale x weight`: at entry `j` of the block the body's product is the
    entry of `x` under `j` times the row's entry at `j`'s column, and the column of the array index under `j`
    is `j`'s own (the blocks span all columns). -/
theorem flushed_eq (c : Dev nD) (t : Fin cfg0.N) :
    (dats m 0 c).flushed 2 t
      = ((cfg0.win 2).blk t).view.read (Elt Ideal) (dimScale (xarr m c) (wvec m c)) := by
  rw [Value.flushed2]
  unfold out0_2
  rw [View.canon_unit_zero origin3]
  simp only [View.ld_unit_zero (S := S1x512x4096) origin3, View.ld_unit_zero (S := S1x1x4096) origin3]
  obtain ⟨e0, e1, e2, e3, e4, e5, e6, -, -⟩ := idx_facts t
  funext j
  show k0_pay1 (F := Ideal) (xblk m c t) (rowblk m c t) j
      = dimScale (xarr m c) (wvec m c) (((cfg0.win 2).blk t).view.emb j)
  refine (blk_mul_row_apply (xblk m c t) (rowblk m c t) shapeCasts_S1x1x4096_S1x1x4096
    broadcasts_S1x1x4096_S1x512x4096 j).trans ?_
  have hj0 : (j 0).val < 1 := (j 0).isLt
  have hj1 : (j 1).val < 512 := (j 1).isLt
  have hj2 : (j 2).val < 4096 := (j 2).isLt
  have hx : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  have hr : ((cfg0.win 1).blk t).view.emb (ix3 (0 : Fin 1) (0 : Fin 1) (j 2)) = ix3 (0 : Fin 1) (0 : Fin 1) (j 2) := by
    funext a; apply Fin.ext
    match a with
    | ⟨0, _⟩ => show win0_1.index t (0 : Fin 3) * 1 + 1 * 0 = 0; omega
    | ⟨1, _⟩ => show win0_1.index t (1 : Fin 3) * 1 + 1 * 0 = 0; omega
    | ⟨2, _⟩ => show win0_1.index t (2 : Fin 3) * 4096 + 1 * (j 2).val = (j 2).val; omega
  have hcol : (((cfg0.win 2).blk t).view.emb j) 2 = j 2 := by
    apply Fin.ext
    show win0_2.index t (2 : Fin 3) * 4096 + 1 * (j 2).val = (j 2).val
    omega
  have hxe : xblk m c t j = xarr m c (((cfg0.win 2).blk t).view.emb j) := by
    show xarr m c (((cfg0.win 0).blk t).view.emb j) = _
    rw [hx]
  have hre : rowblk m c t (ix3 (0 : Fin 1) (0 : Fin 1) (j 2)) = wvec m c (ix1 (j 2)) := by
    show rowarr m c (((cfg0.win 1).blk t).view.emb (ix3 (0 : Fin 1) (0 : Fin 1) (j 2))) = _
    rw [hr]
    exact row_apply m c (j 2)
  rw [hxe, hre]
  exact congrArg (fun d => xarr m c (((cfg0.win 2).blk t).view.emb j) * wvec m c (ix1 d)) hcol.symm

/-! ## The blocks tile the array -/

/-- An index of the array is in point `t`'s block iff each coordinate is in the block's range on its axis. -/
theorem mem_blk (t : Fin cfg0.N) (i : S4x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v16).slice (win0_2.rect t)).set ↔ _
  rw [View.set_slice_whole, Rect.mem_set_unit]
  exact Iff.rfl

/-- Every index `(b, r, d)` of the array is in the block of the point `(b, r / 512)`. -/
theorem cover (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-! ## The array after the run -/

/-- The result array ends holding `dimScale` of the launch memory's `x` and weight vector. -/
theorem final (c : Dev nD) :
    (dats m 0 c).arrAt 2 cfg0.N = dimScale (m ((c : Thread nD τ).loc main_arg0)) (wvec m c) := by
  rw [(dats m 0 c).arrAt_eq_of_cover 2 (dimScale (xarr m c) (wvec m c)) (fun t _ => flushed_eq m c t) cover]
  show dimScale (V m c main_arg0) (wvec m c) = _
  rw [V_main_arg0]

/-- The kernel's run with the result array named: `dimScale x weight`, the arguments unchanged. -/
theorem run : θ_run defs (onTc (τ := τ) (main (F := Ideal))) ⟨m, fun _ => 0, ρ⟩ fun r => ∀ c : Dev nD,
      r.2.mem ((c : Thread nD τ).loc main_v16) = dimScale (m ((c : Thread nD τ).loc main_arg0)) (wvec m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Scaled

end
-- ==== Proof.RefArray.lean ====
/-
  The reference's result, as the same function of the arguments.

  The reference gathers the same weight vector (the table of shards read at the index pairs `(shard_map d, d)`,
  negative indices wrapped), broadcasts it to a row [1, 1, 4096] and then to the whole shape, and multiplies
  the two whole arrays. A broadcast along new leading axes reads its operand at the last coordinate, so the
  product at `(b, s, d)` is `x (b, s, d)` times the weight of `d`: `dimScale x weight`.
-/
import proofs.«161922_j35485019800370_1_alg».proof.Proof.Gen.ReferenceIdeal.Run
import proofs.«161922_j35485019800370_1_alg».proof.Proof.Gen.ReferenceIdeal.Read
import proofs.«161922_j35485019800370_1_alg».proof.Proof.DimScale

noncomputable section

namespace Cert.ReferenceIdeal.Scaled

open Cert.ReferenceIdeal Cert.ReferenceIdeal.Gen Idealize.ShloMosaic Idealize.ShloMosaic.TcCoe Idealize.SL.Sem
open Idealize.ShloMosaic.StableHlo Cert.DimScale

variable (m : (ℓ : Loc nD τ sig) → Buf (Elt Ideal) ℓ) (ρ : Dev nD → PrngReg)

/-- The reference's weight vector of the launch memory: its gather stage at the two arguments it reads. -/
abbrev wvec (c : Dev nD) : (⟨S4096, .f32⟩ : BufTy).Contents (Elt Ideal) :=
  Read.val_main_v14 (F := Ideal) (m ((c.tc : Thread nD τ).loc main_arg1)) (m ((c.tc : Thread nD τ).loc main_arg2))

/-- The reference's run with the result named: `dimScale x weight`, the arguments unchanged. -/
theorem run : θ_run defs (onTc (τ := τ) (main (F := Ideal))) ⟨m, fun _ => 0, ρ⟩ fun r => ∀ c : Dev nD,
      r.2.mem ((c.tc : Thread nD τ).loc main_v17) = dimScale (m ((c.tc : Thread nD τ).loc main_arg0)) (wvec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun r h c => ⟨(h c).1.trans (mul_bcast_eq (m ((c.tc : Thread nD τ).loc main_arg0)) (wvec m c)
        bcast_S4096_S1x1x4096_2 bcast_S1x1x4096_S4x4096x4096_0_1_2), (h c).2⟩)
    (Value.run (F := Ideal) m ρ)

end Cert.ReferenceIdeal.Scaled

end
-- ==== Proof.lean ====
/-
  Per-coordinate shard weights: the kernel against its reference.

  Both programs compute `out (b, s, d) = x (b, s, d) * w d` over x : [4, 4096, 4096], where the weight
  `w d = shards (shard_map d, d)` is gathered from the table of shards by the same host operations on both sides
  (the index pairs `(shard_map d, d)`, a negative index wrapped once). They differ only in how `w` meets `x`:
  the reference broadcasts `w` to the whole shape and multiplies two whole arrays; the kernel reshapes `w` to one
  row and, block by block of 512 rows, multiplies a block of `x` by the row broadcast down the block, the 32
  blocks tiling the array. At the ideal instance each entry of either result is ONE product of the same two
  extended reals, so the results agree entry by entry and the finiteness of the inputs is never used
  (`DimScale`: the common function; `KernelArray`: the kernel's array after the run; `RefArray`: the
  reference's result).

  The frames: each kernel program's is its generated frame; the reference has no kernel, and its frame is its
  run with the result dropped. No operation of the kernel was rewritten for the ideal instance, so there is
  nothing to preserve.
-/
import proofs.«161922_j35485019800370_1_alg».proof.Defs
import proofs.«161922_j35485019800370_1_alg».proof.Proof.Gen.Kernel
import proofs.«161922_j35485019800370_1_alg».proof.Proof.Gen.Kernel.Skeleton
import proofs.«161922_j35485019800370_1_alg».proof.Proof.Gen.Kernel.Launch
import proofs.«161922_j35485019800370_1_alg».proof.Proof.Gen.Kernel.Points
import proofs.«161922_j35485019800370_1_alg».proof.Proof.Gen.Kernel.Frame
import proofs.«161922_j35485019800370_1_alg».proof.Proof.Gen.KernelIdeal
import proofs.«161922_j35485019800370_1_alg».proof.Proof.Gen.KernelIdeal.Skeleton
import proofs.«161922_j35485019800370_1_alg».proof.Proof.Gen.KernelIdeal.Launch
import proofs.«161922_j35485019800370_1_alg».proof.Proof.Gen.KernelIdeal.Points
import proofs.«161922_j35485019800370_1_alg».proof.Proof.Gen.KernelIdeal.Frame
import proofs.«161922_j35485019800370_1_alg».proof.Proof.Gen.ReferenceIdeal
import proofs.«161922_j35485019800370_1_alg».proof.Proof.Gen.Pre_finite_inputs
import proofs.«161922_j35485019800370_1_alg».proof.Proof.Gen.KernelIdeal.Value
import proofs.«161922_j35485019800370_1_alg».proof.Proof.Gen.ReferenceIdeal.Run
import proofs.«161922_j35485019800370_1_alg».proof.Proof.Gen.ReferenceIdeal.Read
import proofs.«161922_j35485019800370_1_alg».proof.Proof.DimScale
import proofs.«161922_j35485019800370_1_alg».proof.Proof.KernelArray
import proofs.«161922_j35485019800370_1_alg».proof.Proof.RefArray
import Idealize.ShloMosaic.Adequacy
import Idealize.ShloMosaic.Init

noncomputable section

namespace Cert.Proof

open Idealize.ShloMosaic Idealize.ShloMosaic.TcCoe Idealize.SL.Sem

/-- The two programs gather the SAME weight vector from the same table and index vector: their host operations
    up to the gather are the same operations of the same operands. -/
theorem weight_eq (shards : (⟨Cert.KernelIdeal.S8x4096, .f32⟩ : BufTy).Contents (Elt Ideal))
    (smap : (⟨Cert.KernelIdeal.S4096, .i32⟩ : BufTy).Contents (Elt Ideal)) :
    Cert.ReferenceIdeal.Read.val_main_v14 (F := Ideal) shards smap = Cert.KernelIdeal.Scaled.weight shards smap := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments, the kernel's result array and the reference's result are both
    `dimScale` of the same `x` and the same weight vector. -/
theorem algebraic : Cert.algebraic_KernelIdeal_ReferenceIdeal := by
  intro m ρ m' ρ' _ hagree
  refine ⟨_, Cert.KernelIdeal.Scaled.run m ρ, ?_⟩
  refine (θ_run Cert.ReferenceIdeal.defs _ _).mono (fun _ h c => ⟨(h c).1.trans ?_, (h c).2⟩)
    (Cert.ReferenceIdeal.Scaled.run m' ρ')
  dsimp only [Cert.ReferenceIdeal.Scaled.wvec, Cert.KernelIdeal.Scaled.wvec]
  rw [(hagree c).1, (hagree c).2.1, (hagree c).2.2, weight_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
